-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096x32 : Shape := ⟨3, ![1024, 4096, 32]⟩
abbrev S_ : Shape := ⟨0, ![]⟩

class Facts : Prop where
  bcast_S_S1024x4096x32 : S_.BroadcastsInDim S1024x4096x32 (![] : Fin 0 → Fin S1024x4096x32.rank)
  reducesTo_S1024x4096x32_S_d0_1_2 : S1024x4096x32.ReducesTo [0, 1, 2] S_
  h_S_ : 0 < S_.numel

variable [Facts]

def fn {F : FTy → Type} [FloatOps F] (main_arg0 : FVec F S1024x4096x32 .f32) : IVec S_ 1 :=
  let main_v0 : FVec F S1024x4096x32 .f32 := Host.absf main_arg0
  let main_cst : FVec F S_ .f32 := constant S_ .f32 0x7F800000#32
  let main_v1 : FVec F S1024x4096x32 .f32 := broadcastInDim S1024x4096x32 ![] bcast_S_S1024x4096x32 main_cst
  let main_v2 : IVec S1024x4096x32 1 := cmpf .olt main_v0 main_v1
  let main_c : IVec S_ 1 := constantI S_ 1 1#1
  let main_v3 : IVec S_ 1 := (fun x v => Host.reduce IntOp.andi x v reducesTo_S1024x4096x32_S_d0_1_2 h_S_) main_v2 main_c
  main_v3
-- ==== Kernel.lean ====
abbrev S1024x4096x32 : Shape := ⟨3, ![1024, 4096, 32]⟩
abbrev S1024x4096x5 : Shape := ⟨3, ![1024, 4096, 5]⟩
abbrev S128x128x32 : Shape := ⟨3, ![128, 128, 32]⟩
abbrev S128x128x5 : Shape := ⟨3, ![128, 128, 5]⟩
abbrev S32x128x128 : Shape := ⟨3, ![32, 128, 128]⟩
abbrev S1x128x128 : Shape := ⟨3, ![1, 128, 128]⟩
abbrev S128x128 : Shape := ⟨2, ![128, 128]⟩
abbrev S128x128x1 : Shape := ⟨3, ![128, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S1024x4096x32, .f32⟩
  | .hbm, ⟨1, _⟩ => ⟨S1024x4096x5, .f32⟩
  | .local _ .vmem, ⟨0, _⟩ => ⟨S128x128x32, .f32⟩
  | .local _ .vmem, ⟨1, _⟩ => ⟨S128x128x32, .f32⟩
  | .local _ .vmem, ⟨2, _⟩ => ⟨S128x128x5, .f32⟩
  | .local _ .vmem, ⟨3, _⟩ => ⟨S128x128x5, .f32⟩
  | _, _ => ⟨S1024x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S128x128x32_S128x128x32_0_0_0 : ∀ a, (![0, 0, 0] : Fin 3 → Nat) a + S128x128x32.size a ≤ S128x128x32.size a
  h_S128x128x32 : 0 < S128x128x32.numel
  transposes_S128x128x32_p2_0_1_S32x128x128 : S128x128x32.Transposes [2, 0, 1] S32x128x128
  slices_S32x128x128_o1_0_0_S1x128x128 : S32x128x128.Slices ![1, 0, 0] S1x128x128
  shapeCasts_S1x128x128_S128x128 : S1x128x128.ShapeCasts S128x128
  slices_S32x128x128_o2_0_0_S1x128x128 : S32x128x128.Slices ![2, 0, 0] S1x128x128
  slices_S32x128x128_o3_0_0_S1x128x128 : S32x128x128.Slices ![3, 0, 0] S1x128x128
  slices_S32x128x128_o4_0_0_S1x128x128 : S32x128x128.Slices ![4, 0, 0] S1x128x128
  slices_S32x128x128_o5_0_0_S1x128x128 : S32x128x128.Slices ![5, 0, 0] S1x128x128
  slices_S32x128x128_o6_0_0_S1x128x128 : S32x128x128.Slices ![6, 0, 0] S1x128x128
  slices_S32x128x128_o7_0_0_S1x128x128 : S32x128x128.Slices ![7, 0, 0] S1x128x128
  slices_S32x128x128_o8_0_0_S1x128x128 : S32x128x128.Slices ![8, 0, 0] S1x128x128
  slices_S32x128x128_o9_0_0_S1x128x128 : S32x128x128.Slices ![9, 0, 0] S1x128x128
  slices_S32x128x128_o10_0_0_S1x128x128 : S32x128x128.Slices ![10, 0, 0] S1x128x128
  slices_S32x128x128_o11_0_0_S1x128x128 : S32x128x128.Slices ![11, 0, 0] S1x128x128
  slices_S32x128x128_o12_0_0_S1x128x128 : S32x128x128.Slices ![12, 0, 0] S1x128x128
  shapeCasts_S128x128_S128x128x1 : S128x128.ShapeCasts S128x128x1
  inb_S128x128x5_S128x128x1_0_0_0 : ∀ a, (![0, 0, 0] : Fin 3 → Nat) a + S128x128x1.size a ≤ S128x128x5.size a
  h_S128x128x1 : 0 < S128x128x1.numel
  inb_S128x128x5_S128x128x1_0_0_1 : ∀ a, (![0, 0, 1] : Fin 3 → Nat) a + S128x128x1.size a ≤ S128x128x5.size a
  inb_S128x128x5_S128x128x1_0_0_2 : ∀ a, (![0, 0, 2] : Fin 3 → Nat) a + S128x128x1.size a ≤ S128x128x5.size a
  inb_S128x128x5_S128x128x1_0_0_3 : ∀ a, (![0, 0, 3] : Fin 3 → Nat) a + S128x128x1.size a ≤ S128x128x5.size a
  inb_S128x128x5_S128x128x1_0_0_4 : ∀ a, (![0, 0, 4] : Fin 3 → Nat) a + S128x128x1.size a ≤ S128x128x5.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x32.size a ≤ S1024x4096x32.size a
  hwx0_0 : ∀ i : grid0.Coords, EltTy.bits .f32 = 32 ∨ (Rect.block (s := S1024x4096x32) S128x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x5.size a ≤ S1024x4096x5.size a
  hwx0_1 : ∀ i : grid0.Coords, EltTy.bits .f32 = 32 ∨ (Rect.block (s := S1024x4096x5) S128x128x5.size (cc0_transform_1 i) (hinb0_1 i)).WholeWords (EltTy.packing .f32)

variable [Facts₀]

abbrev win0_0 : Pipeline.Window sig grid0 :=
  Pipeline.Window.ofSpec (Memref.whole main_arg0) S128x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128x5.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x4096x32 : Shape := ⟨3, ![1024, 4096, 32]⟩
abbrev S1024x4096x8 : Shape := ⟨3, ![1024, 4096, 8]⟩
abbrev S1024x4096x23 : Shape := ⟨3, ![1024, 4096, 23]⟩
abbrev S_ : Shape := ⟨0, ![]⟩
abbrev S1024x4096x1 : Shape := ⟨3, ![1024, 4096, 1]⟩
abbrev S1024x4096x5 : Shape := ⟨3, ![1024, 4096, 5]⟩

abbrev nBuf : Space → Nat
  | .hbm => 274
  | .vmem => 0
  | .smem => 0
  | _ => 0

abbrev hbmTy0_0 (i : Nat) : BufTy := match i % 128 with
  | 0 => ⟨S1024x4096x32, .f32⟩
  | 1 => ⟨S1024x4096x8, .f32⟩
  | 2 => ⟨S1024x4096x23, .f32⟩
  | 3 => ⟨S_, .f32⟩
  | 4 => ⟨S1024x4096x1, .f32⟩
  | 5 => ⟨S1024x4096x1, .f32⟩
  | 6 => ⟨S_, .f32⟩
  | 7 => ⟨S1024x4096x1, .f32⟩
  | 8 => ⟨S1024x4096x1, .f32⟩
  | 9 => ⟨S_, .f32⟩
  | 10 => ⟨S1024x4096x1, .f32⟩
  | 11 => ⟨S1024x4096x1, .f32⟩
  | 12 => ⟨S_, .f32⟩
  | 13 => ⟨S1024x4096x1, .f32⟩
  | 14 => ⟨S1024x4096x1, .f32⟩
  | 15 => ⟨S1024x4096x1, .f32⟩
  | 16 => ⟨S1024x4096x1, .f32⟩
  | 17 => ⟨S_, .f32⟩
  | 18 => ⟨S1024x4096x1, .f32⟩
  | 19 => ⟨S1024x4096x1, .f32⟩
  | 20 => ⟨S1024x4096x1, .f32⟩
  | 21 => ⟨S1024x4096x1, .f32⟩
  | 22 => ⟨S_, .f32⟩
  | 23 => ⟨S1024x4096x1, .f32⟩
  | 24 => ⟨S1024x4096x1, .f32⟩
  | 25 => ⟨S1024x4096x1, .f32⟩
  | 26 => ⟨S1024x4096x1, .f32⟩
  | 27 => ⟨S1024x4096x1, .f32⟩
  | 28 => ⟨S_, .f32⟩
  | 29 => ⟨S1024x4096x1, .f32⟩
  | 30 => ⟨S1024x4096x1, .f32⟩
  | 31 => ⟨S_, .f32⟩
  | 32 => ⟨S1024x4096x1, .f32⟩
  | 33 => ⟨S1024x4096x1, .f32⟩
  | 34 => ⟨S_, .f32⟩
  | 35 => ⟨S1024x4096x1, .f32⟩
  | 36 => ⟨S1024x4096x1, .f32⟩
  | 37 => ⟨S1024x4096x1, .f32⟩
  | 38 => ⟨S1024x4096x1, .f32⟩
  | 39 => ⟨S_, .f32⟩
  | 40 => ⟨S1024x4096x1, .f32⟩
  | 41 => ⟨S1024x4096x1, .f32⟩
  | 42 => ⟨S1024x4096x1, .f32⟩
  | 43 => ⟨S1024x4096x1, .f32⟩
  | 44 => ⟨S_, .f32⟩
  | 45 => ⟨S1024x4096x1, .f32⟩
  | 46 => ⟨S1024x4096x1, .f32⟩
  | 47 => ⟨S1024x4096x1, .f32⟩
  | 48 => ⟨S1024x4096x1, .f32⟩
  | 49 => ⟨S1024x4096x1, .f32⟩
  | 50 => ⟨S_, .f32⟩
  | 51 => ⟨S1024x4096x1, .f32⟩
  | 52 => ⟨S1024x4096x1, .f32⟩
  | 53 => ⟨S_, .f32⟩
  | 54 => ⟨S1024x4096x1, .f32⟩
  | 55 => ⟨S1024x4096x1, .f32⟩
  | 56 => ⟨S_, .f32⟩
  | 57 => ⟨S1024x4096x1, .f32⟩
  | 58 => ⟨S1024x4096x1, .f32⟩
  | 59 => ⟨S1024x4096x1, .f32⟩
  | 60 => ⟨S1024x4096x1, .f32⟩
  | 61 => ⟨S_, .f32⟩
  | 62 => ⟨S1024x4096x1, .f32⟩
  | 63 => ⟨S1024x4096x1, .f32⟩
  | 64 => ⟨S1024x4096x1, .f32⟩
  | 65 => ⟨S1024x4096x1, .f32⟩
  | 66 => ⟨S_, .f32⟩
  | 67 => ⟨S1024x4096x1, .f32⟩
  | 68 => ⟨S1024x4096x1, .f32⟩
  | 69 => ⟨S1024x4096x1, .f32⟩
  | 70 => ⟨S1024x4096x1, .f32⟩
  | 71 => ⟨S1024x4096x1, .f32⟩
  | 72 => ⟨S_, .f32⟩
  | 73 => ⟨S1024x4096x1, .f32⟩
  | 74 => ⟨S1024x4096x1, .f32⟩
  | 75 => ⟨S_, .f32⟩
  | 76 => ⟨S1024x4096x1, .f32⟩
  | 77 => ⟨S1024x4096x1, .f32⟩
  | 78 => ⟨S_, .f32⟩
  | 79 => ⟨S1024x4096x1, .f32⟩
  | 80 => ⟨S1024x4096x1, .f32⟩
  | 81 => ⟨S1024x4096x1, .f32⟩
  | 82 => ⟨S1024x4096x1, .f32⟩
  | 83 => ⟨S_, .f32⟩
  | 84 => ⟨S1024x4096x1, .f32⟩
  | 85 => ⟨S1024x4096x1, .f32⟩
  | 86 => ⟨S1024x4096x1, .f32⟩
  | 87 => ⟨S1024x4096x1, .f32⟩
  | 88 => ⟨S_, .f32⟩
  | 89 => ⟨S1024x4096x1, .f32⟩
  | 90 => ⟨S1024x4096x1, .f32⟩
  | 91 => ⟨S1024x4096x1, .f32⟩
  | 92 => ⟨S1024x4096x1, .f32⟩
  | 93 => ⟨S1024x4096x1, .f32⟩
  | 94 => ⟨S_, .f32⟩
  | 95 => ⟨S1024x4096x1, .f32⟩
  | 96 => ⟨S1024x4096x1, .f32⟩
  | 97 => ⟨S_, .f32⟩
  | 98 => ⟨S1024x4096x1, .f32⟩
  | 99 => ⟨S1024x4096x1, .f32⟩
  | 100 => ⟨S_, .f32⟩
  | 101 => ⟨S1024x4096x1, .f32⟩
  | 102 => ⟨S1024x4096x1, .f32⟩
  | 103 => ⟨S1024x4096x1, .f32⟩
  | 104 => ⟨S1024x4096x1, .f32⟩
  | 105 => ⟨S_, .f32⟩
  | 106 => ⟨S1024x4096x1, .f32⟩
  | 107 => ⟨S1024x4096x1, .f32⟩
  | 108 => ⟨S1024x4096x1, .f32⟩
  | 109 => ⟨S1024x4096x1, .f32⟩
  | 110 => ⟨S_, .f32⟩
  | 111 => ⟨S1024x4096x1, .f32⟩
  | 112 => ⟨S1024x4096x1, .f32⟩
  | 113 => ⟨S1024x4096x1, .f32⟩
  | 114 => ⟨S1024x4096x1, .f32⟩
  | 115 => ⟨S1024x4096x1, .f32⟩
  | 116 => ⟨S_, .f32⟩
  | 117 => ⟨S1024x4096x1, .f32⟩
  | 118 => ⟨S1024x4096x1, .f32⟩
  | 119 => ⟨S_, .f32⟩
  | 120 => ⟨S1024x4096x1, .f32⟩
  | 121 => ⟨S1024x4096x1, .f32⟩
  | 122 => ⟨S_, .f32⟩
  | 123 => ⟨S1024x4096x1, .f32⟩
  | 124 => ⟨S1024x4096x1, .f32⟩
  | 125 => ⟨S1024x4096x1, .f32⟩
  | 126 => ⟨S1024x4096x1, .f32⟩
  | 127 => ⟨S_, .f32⟩
  | _ => ⟨S1024x4096x32, .f32⟩

abbrev hbmTy0_1 (i : Nat) : BufTy := match i % 128 with
  | 0 => ⟨S1024x4096x1, .f32⟩
  | 1 => ⟨S1024x4096x1, .f32⟩
  | 2 => ⟨S1024x4096x1, .f32⟩
  | 3 => ⟨S1024x4096x1, .f32⟩
  | 4 => ⟨S_, .f32⟩
  | 5 => ⟨S1024x4096x1, .f32⟩
  | 6 => ⟨S1024x4096x1, .f32⟩
  | 7 => ⟨S1024x4096x1, .f32⟩
  | 8 => ⟨S1024x4096x1, .f32⟩
  | 9 => ⟨S1024x4096x1, .f32⟩
  | 10 => ⟨S_, .f32⟩
  | 11 => ⟨S1024x4096x1, .f32⟩
  | 12 => ⟨S1024x4096x1, .f32⟩
  | 13 => ⟨S_, .f32⟩
  | 14 => ⟨S1024x4096x1, .f32⟩
  | 15 => ⟨S1024x4096x1, .f32⟩
  | 16 => ⟨S_, .f32⟩
  | 17 => ⟨S1024x4096x1, .f32⟩
  | 18 => ⟨S1024x4096x1, .f32⟩
  | 19 => ⟨S1024x4096x1, .f32⟩
  | 20 => ⟨S1024x4096x1, .f32⟩
  | 21 => ⟨S_, .f32⟩
  | 22 => ⟨S1024x4096x1, .f32⟩
  | 23 => ⟨S1024x4096x1, .f32⟩
  | 24 => ⟨S1024x4096x1, .f32⟩
  | 25 => ⟨S1024x4096x1, .f32⟩
  | 26 => ⟨S_, .f32⟩
  | 27 => ⟨S1024x4096x1, .f32⟩
  | 28 => ⟨S1024x4096x1, .f32⟩
  | 29 => ⟨S1024x4096x1, .f32⟩
  | 30 => ⟨S1024x4096x1, .f32⟩
  | 31 => ⟨S1024x4096x1, .f32⟩
  | 32 => ⟨S_, .f32⟩
  | 33 => ⟨S1024x4096x1, .f32⟩
  | 34 => ⟨S1024x4096x1, .f32⟩
  | 35 => ⟨S_, .f32⟩
  | 36 => ⟨S1024x4096x1, .f32⟩
  | 37 => ⟨S1024x4096x1, .f32⟩
  | 38 => ⟨S_, .f32⟩
  | 39 => ⟨S1024x4096x1, .f32⟩
  | 40 => ⟨S1024x4096x1, .f32⟩
  | 41 => ⟨S1024x4096x1, .f32⟩
  | 42 => ⟨S1024x4096x1, .f32⟩
  | 43 => ⟨S_, .f32⟩
  | 44 => ⟨S1024x4096x1, .f32⟩
  | 45 => ⟨S1024x4096x1, .f32⟩
  | 46 => ⟨S1024x4096x1, .f32⟩
  | 47 => ⟨S1024x4096x1, .f32⟩
  | 48 => ⟨S_, .f32⟩
  | 49 => ⟨S1024x4096x1, .f32⟩
  | 50 => ⟨S1024x4096x1, .f32⟩
  | 51 => ⟨S1024x4096x1, .f32⟩
  | 52 => ⟨S1024x4096x1, .f32⟩
  | 53 => ⟨S_, .f32⟩
  | 54 => ⟨S1024x4096x1, .f32⟩
  | 55 => ⟨S1024x4096x1, .f32⟩
  | 56 => ⟨S_, .f32⟩
  | 57 => ⟨S1024x4096x1, .f32⟩
  | 58 => ⟨S1024x4096x1, .f32⟩
  | 59 => ⟨S_, .f32⟩
  | 60 => ⟨S1024x4096x1, .f32⟩
  | 61 => ⟨S1024x4096x1, .f32⟩
  | 62 => ⟨S_, .f32⟩
  | 63 => ⟨S1024x4096x1, .f32⟩
  | 64 => ⟨S1024x4096x1, .f32⟩
  | 65 => ⟨S_, .f32⟩
  | 66 => ⟨S1024x4096x1, .f32⟩
  | 67 => ⟨S1024x4096x1, .f32⟩
  | 68 => ⟨S_, .f32⟩
  | 69 => ⟨S1024x4096x1, .f32⟩
  | 70 => ⟨S1024x4096x1, .f32⟩
  | 71 => ⟨S_, .f32⟩
  | 72 => ⟨S1024x4096x1, .f32⟩
  | 73 => ⟨S1024x4096x1, .f32⟩
  | 74 => ⟨S_, .f32⟩
  | 75 => ⟨S1024x4096x1, .f32⟩
  | 76 => ⟨S1024x4096x1, .f32⟩
  | 77 => ⟨S1024x4096x1, .f32⟩
  | 78 => ⟨S1024x4096x1, .f32⟩
  | 79 => ⟨S1024x4096x1, .f32⟩
  | 80 => ⟨S1024x4096x1, .f32⟩
  | 81 => ⟨S1024x4096x1, .f32⟩
  | 82 => ⟨S1024x4096x1, .f32⟩
  | 83 => ⟨S1024x4096x1, .f32⟩
  | 84 => ⟨S1024x4096x1, .f32⟩
  | 85 => ⟨S1024x4096x1, .f32⟩
  | 86 => ⟨S1024x4096x1, .f32⟩
  | 87 => ⟨S1024x4096x1, .f32⟩
  | 88 => ⟨S1024x4096x1, .f32⟩
  | 89 => ⟨S1024x4096x1, .f32⟩
  | 90 => ⟨S1024x4096x1, .f32⟩
  | 91 => ⟨S1024x4096x1, .f32⟩
  | 92 => ⟨S1024x4096x1, .f32⟩
  | 93 => ⟨S1024x4096x1, .f32⟩
  | 94 => ⟨S1024x4096x1, .f32⟩
  | 95 => ⟨S1024x4096x1, .f32⟩
  | 96 => ⟨S1024x4096x1, .f32⟩
  | 97 => ⟨S1024x4096x1, .f32⟩
  | 98 => ⟨S1024x4096x1, .f32⟩
  | 99 => ⟨S1024x4096x1, .f32⟩
  | 100 => ⟨S1024x4096x1, .f32⟩
  | 101 => ⟨S1024x4096x1, .f32⟩
  | 102 => ⟨S1024x4096x1, .f32⟩
  | 103 => ⟨S1024x4096x1, .f32⟩
  | 104 => ⟨S1024x4096x1, .f32⟩
  | 105 => ⟨S1024x4096x1, .f32⟩
  | 106 => ⟨S1024x4096x1, .f32⟩
  | 107 => ⟨S1024x4096x1, .f32⟩
  | 108 => ⟨S1024x4096x1, .f32⟩
  | 109 => ⟨S1024x4096x1, .f32⟩
  | 110 => ⟨S1024x4096x1, .f32⟩
  | 111 => ⟨S1024x4096x1, .f32⟩
  | 112 => ⟨S1024x4096x1, .f32⟩
  | 113 => ⟨S1024x4096x1, .f32⟩
  | 114 => ⟨S1024x4096x1, .f32⟩
  | 115 => ⟨S1024x4096x1, .f32⟩
  | 116 => ⟨S1024x4096x1, .f32⟩
  | 117 => ⟨S1024x4096x1, .f32⟩
  | 118 => ⟨S1024x4096x1, .f32⟩
  | 119 => ⟨S1024x4096x1, .f32⟩
  | 120 => ⟨S1024x4096x1, .f32⟩
  | 121 => ⟨S1024x4096x1, .f32⟩
  | 122 => ⟨S1024x4096x1, .f32⟩
  | 123 => ⟨S1024x4096x1, .f32⟩
  | 124 => ⟨S1024x4096x1, .f32⟩
  | 125 => ⟨S1024x4096x1, .f32⟩
  | 126 => ⟨S1024x4096x1, .f32⟩
  | 127 => ⟨S1024x4096x1, .f32⟩
  | _ => ⟨S1024x4096x32, .f32⟩

abbrev hbmTy0_2 (i : Nat) : BufTy := match i % 128 with
  | 0 => ⟨S1024x4096x1, .f32⟩
  | 1 => ⟨S1024x4096x1, .f32⟩
  | 2 => ⟨S1024x4096x1, .f32⟩
  | 3 => ⟨S1024x4096x1, .f32⟩
  | 4 => ⟨S1024x4096x1, .f32⟩
  | 5 => ⟨S1024x4096x1, .f32⟩
  | 6 => ⟨S1024x4096x1, .f32⟩
  | 7 => ⟨S1024x4096x1, .f32⟩
  | 8 => ⟨S1024x4096x1, .f32⟩
  | 9 => ⟨S1024x4096x1, .f32⟩
  | 10 => ⟨S1024x4096x1, .f32⟩
  | 11 => ⟨S1024x4096x1, .f32⟩
  | 12 => ⟨S1024x4096x1, .f32⟩
  | 13 => ⟨S1024x4096x1, .f32⟩
  | 14 => ⟨S1024x4096x1, .f32⟩
  | 15 => ⟨S1024x4096x1, .f32⟩
  | 16 => ⟨S1024x4096x1, .f32⟩
  | 17 => ⟨S1024x4096x5, .f32⟩
  | _ => ⟨S1024x4096x32, .f32⟩

abbrev hbmTy (i : Nat) : BufTy := match i / 128 with
  | 0 => hbmTy0_0 i
  | 1 => hbmTy0_1 i
  | 2 => hbmTy0_2 i
  | _ => ⟨S1024x4096x32, .f32⟩

abbrev bufTy : (tb : Table) → Fin (tcTables nBuf tb) → BufTy
  | .hbm, ⟨i, _⟩ => hbmTy i
  | _, _ => ⟨S1024x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_9 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_10 : Ref sig .tc := ⟨.hbm, 50, rfl⟩
abbrev main_v38 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_15 : Ref sig .tc := ⟨.hbm, 72, rfl⟩
abbrev main_v55 : Ref sig .tc := ⟨.hbm, 73, rfl⟩
abbrev main_v56 : Ref sig .tc := ⟨.hbm, 74, rfl⟩
abbrev main_cst_16 : Ref sig .tc := ⟨.hbm, 75, rfl⟩
abbrev main_v57 : Ref sig .tc := ⟨.hbm, 76, rfl⟩
abbrev main_v58 : Ref sig .tc := ⟨.hbm, 77, rfl⟩
abbrev main_cst_17 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_18 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_20 : Ref sig .tc := ⟨.hbm, 94, rfl⟩
abbrev main_v72 : Ref sig .tc := ⟨.hbm, 95, rfl⟩
abbrev main_v73 : Ref sig .tc := ⟨.hbm, 96, rfl⟩
abbrev main_cst_21 : Ref sig .tc := ⟨.hbm, 97, rfl⟩
abbrev main_v74 : Ref sig .tc := ⟨.hbm, 98, rfl⟩
abbrev main_v75 : Ref sig .tc := ⟨.hbm, 99, rfl⟩
abbrev main_cst_22 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_23 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_24 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_25 : Ref sig .tc := ⟨.hbm, 116, rfl⟩
abbrev main_v89 : Ref sig .tc := ⟨.hbm, 117, rfl⟩
abbrev main_v90 : Ref sig .tc := ⟨.hbm, 118, rfl⟩
abbrev main_cst_26 : Ref sig .tc := ⟨.hbm, 119, rfl⟩
abbrev main_v91 : Ref sig .tc := ⟨.hbm, 120, rfl⟩
abbrev main_v92 : Ref sig .tc := ⟨.hbm, 121, rfl⟩
abbrev main_cst_27 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_28 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_29 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_30 : Ref sig .tc := ⟨.hbm, 138, rfl⟩
abbrev main_v106 : Ref sig .tc := ⟨.hbm, 139, rfl⟩
abbrev main_v107 : Ref sig .tc := ⟨.hbm, 140, rfl⟩
abbrev main_cst_31 : Ref sig .tc := ⟨.hbm, 141, rfl⟩
abbrev main_v108 : Ref sig .tc := ⟨.hbm, 142, rfl⟩
abbrev main_v109 : Ref sig .tc := ⟨.hbm, 143, rfl⟩
abbrev main_cst_32 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_33 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_34 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_35 : Ref sig .tc := ⟨.hbm, 160, rfl⟩
abbrev main_v123 : Ref sig .tc := ⟨.hbm, 161, rfl⟩
abbrev main_v124 : Ref sig .tc := ⟨.hbm, 162, rfl⟩
abbrev main_cst_36 : Ref sig .tc := ⟨.hbm, 163, rfl⟩
abbrev main_v125 : Ref sig .tc := ⟨.hbm, 164, rfl⟩
abbrev main_v126 : Ref sig .tc := ⟨.hbm, 165, rfl⟩
abbrev main_cst_37 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_38 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_39 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_40 : Ref sig .tc := ⟨.hbm, 181, rfl⟩
abbrev main_v139 : Ref sig .tc := ⟨.hbm, 182, rfl⟩
abbrev main_v140 : Ref sig .tc := ⟨.hbm, 183, rfl⟩
abbrev main_cst_41 : Ref sig .tc := ⟨.hbm, 184, rfl⟩
abbrev main_v141 : Ref sig .tc := ⟨.hbm, 185, rfl⟩
abbrev main_v142 : Ref sig .tc := ⟨.hbm, 186, rfl⟩
abbrev main_cst_42 : Ref sig .tc := ⟨.hbm, 187, rfl⟩
abbrev main_v143 : Ref sig .tc := ⟨.hbm, 188, rfl⟩
abbrev main_v144 : Ref sig .tc := ⟨.hbm, 189, rfl⟩
abbrev main_cst_43 : Ref sig .tc := ⟨.hbm, 190, rfl⟩
abbrev main_v145 : Ref sig .tc := ⟨.hbm, 191, rfl⟩
abbrev main_v146 : Ref sig .tc := ⟨.hbm, 192, rfl⟩
abbrev main_cst_44 : Ref sig .tc := ⟨.hbm, 193, rfl⟩
abbrev main_v147 : Ref sig .tc := ⟨.hbm, 194, rfl⟩
abbrev main_v148 : Ref sig .tc := ⟨.hbm, 195, rfl⟩
abbrev main_cst_45 : Ref sig .tc := ⟨.hbm, 196, rfl⟩
abbrev main_v149 : Ref sig .tc := ⟨.hbm, 197, rfl⟩
abbrev main_v150 : Ref sig .tc := ⟨.hbm, 198, rfl⟩
abbrev main_cst_46 : Ref sig .tc := ⟨.hbm, 199, rfl⟩
abbrev main_v151 : Ref sig .tc := ⟨.hbm, 200, rfl⟩
abbrev main_v152 : Ref sig .tc := ⟨.hbm, 201, rfl⟩
abbrev main_cst_47 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩

abbrev nD : Nat := 1
abbrev τ : Topo := Topo.v7x

variable {F : FTy → Type} [FloatOps F]

class Facts₀ : Prop where
  slices_S1024x4096x32_S1024x4096x8_0_0_1 : S1024x4096x32.Slices ![0, 0, 1] S1024x4096x8
  slices_S1024x4096x32_S1024x4096x23_0_0_9 : S1024x4096x32.Slices ![0, 0, 9] S1024x4096x23
  bcast_S_S1024x4096x1 : S_.BroadcastsInDim S1024x4096x1 (![] : Fin 0 → Fin S1024x4096x1.rank)
  slices_S1024x4096x8_S1024x4096x1_0_0_7 : S1024x4096x8.Slices ![0, 0, 7] S1024x4096x1
  slices_S1024x4096x8_S1024x4096x1_0_0_6 : S1024x4096x8.Slices ![0, 0, 6] S1024x4096x1
  slices_S1024x4096x8_S1024x4096x1_0_0_5 : S1024x4096x8.Slices ![0, 0, 5] S1024x4096x1
  slices_S1024x4096x8_S1024x4096x1_0_0_4 : S1024x4096x8.Slices ![0, 0, 4] S1024x4096x1
  slices_S1024x4096x8_S1024x4096x1_0_0_3 : S1024x4096x8.Slices ![0, 0, 3] S1024x4096x1
  slices_S1024x4096x8_S1024x4096x1_0_0_2 : S1024x4096x8.Slices ![0, 0, 2] S1024x4096x1
  slices_S1024x4096x8_S1024x4096x1_0_0_1 : S1024x4096x8.Slices ![0, 0, 1] S1024x4096x1
  slices_S1024x4096x8_S1024x4096x1_0_0_0 : S1024x4096x8.Slices ![0, 0, 0] S1024x4096x1
  slices_S1024x4096x23_S1024x4096x1_0_0_0 : S1024x4096x23.Slices ![0, 0, 0] S1024x4096x1
  slices_S1024x4096x23_S1024x4096x1_0_0_1 : S1024x4096x23.Slices ![0, 0, 1] S1024x4096x1
  slices_S1024x4096x23_S1024x4096x1_0_0_2 : S1024x4096x23.Slices ![0, 0, 2] S1024x4096x1
  slices_S1024x4096x23_S1024x4096x1_0_0_3 : S1024x4096x23.Slices ![0, 0, 3] S1024x4096x1
  concatenates_S1024x4096x1_S1024x4096x1_S1024x4096x1_S1024x4096x1_S1024x4096x1_S1024x4096x5_d2 : Shape.Concatenates [S1024x4096x1, S1024x4096x1, S1024x4096x1, S1024x4096x1, S1024x4096x1] S1024x4096x5 2

variable [Facts₀]

class Facts : Prop extends Facts₀ where

variable [Facts]
-- ==== Proof.Circuit.lean ====
/-
  The bit-serial circuit both programs evaluate, written once on the extended reals.

  A row `r` of 32 numbers stands for the pulses of one binary32 word, most significant first: `r 0` the sign,
  `r 1 … r 8` the exponent field, `r 9 … r 31` the fraction. The gates are the arithmetic forms of the boolean
  connectives (exact on 0 and 1, but taken here as plain polynomials of whatever numbers the row holds):
  AND is the product, OR is `a + b - a·b`, NOT is `1 - a`, XOR is `a + b - 2·a·b`, and a full adder's sum and carry
  are `XOR (XOR a b) c` and `a·b + XOR a b · c`.
  The circuit subtracts the bias 127 from the exponent field by a ripple add of the two's complement of 127
  (the pattern 1000 0000 with a carry of one into the lowest position), asks whether the difference is 0, 1, 2, 3 or 4
  (the five high difference bits all clear and the three low ones spelling that number), and from those five indicator
  signals and the four leading fraction pulses assembles the five result bits, most significant first.
  The literals are kept as the binary32 words the programs print (1.0, 2.0 and 0.0); nothing below evaluates one.
-/
import Idealize.ShloMosaic.PureOps.Ideal
import Idealize.ShloMosaic.Lib.ValueIdx

noncomputable section

namespace Cert.Circuit

open Idealize.ShloMosaic Idealize.ShloMosaic.ValueIdx

/-- The word of 1.0, read at the ideal instance. -/
abbrev one : EReal := Ideal.ofBits .f32 0x3F800000#32
/-- The word of 2.0. -/
abbrev two : EReal := Ideal.ofBits .f32 0x40000000#32
/-- The word of 0.0. -/
abbrev zero : EReal := Ideal.ofBits .f32 0x00000000#32

/-- Exclusive or as a polynomial: `a + b - (2·a)·b`. -/
def gxor (a b : EReal) : EReal := a + b - two * a * b
/-- Inclusive or as a polynomial: `a + b - a·b`. -/
def gor (a b : EReal) : EReal := a + b - a * b
/-- Negation as a polynomial: `1 - a`. -/
def gnot (a : EReal) : EReal := one - a

section Row
variable (r : Fin 32 → EReal)

/-! ### Exponent minus 127, rippling from the lowest exponent pulse `r 8` up to `r 1`

  At position `i` (exponent pulse `r (i+1)`), `h i` is the half sum of the pulse with the constant's bit there (0 everywhere
  but the top position, where it is 1), `d i` the difference bit and `k i` the carry passed upward. The carry into the
  lowest position is one. -/

def h7 : EReal := gxor (r 8) zero
def d7 : EReal := gxor (h7 r) one
def k7 : EReal := r 8 * zero + h7 r * one
def h6 : EReal := gxor (r 7) zero
def d6 : EReal := gxor (h6 r) (k7 r)
def k6 : EReal := r 7 * zero + h6 r * k7 r
def h5 : EReal := gxor (r 6) zero
def d5 : EReal := gxor (h5 r) (k6 r)
def k5 : EReal := r 6 * zero + h5 r * k6 r
def h4 : EReal := gxor (r 5) zero
def d4 : EReal := gxor (h4 r) (k5 r)
def k4 : EReal := r 5 * zero + h4 r * k5 r
def h3 : EReal := gxor (r 4) zero
def d3 : EReal := gxor (h3 r) (k4 r)
def k3 : EReal := r 4 * zero + h3 r * k4 r
def h2 : EReal := gxor (r 3) zero
def d2 : EReal := gxor (h2 r) (k3 r)
def k2 : EReal := r 3 * zero + h2 r * k3 r
def h1 : EReal := gxor (r 2) zero
def d1 : EReal := gxor (h1 r) (k2 r)
def k1 : EReal := r 2 * zero + h1 r * k2 r
def h0 : EReal := gxor (r 1) one
def d0 : EReal := gxor (h0 r) (k1 r)

/-! ### Is the difference 0, 1, 2, 3 or 4? -/

/-- The five high difference bits are all clear. -/
def hiClear : EReal := gnot (d0 r) * gnot (d1 r) * gnot (d2 r) * gnot (d3 r) * gnot (d4 r)
def is0 : EReal := hiClear r * (gnot (d5 r) * (gnot (d6 r) * gnot (d7 r)))
def is1 : EReal := hiClear r * (gnot (d5 r) * (gnot (d6 r) * d7 r))
def is2 : EReal := hiClear r * (gnot (d5 r) * (d6 r * gnot (d7 r)))
def is3 : EReal := hiClear r * (gnot (d5 r) * (d6 r * d7 r))
def is4 : EReal := hiClear r * (d5 r * (gnot (d6 r) * gnot (d7 r)))

/-! ### The five result bits: bit `b` is set when the difference is `b` (the implicit leading one lands there), or when it
  is `s > b` and the fraction pulse `s - 1 - b` places down is set. -/

def bit0 : EReal := gor (gor (gor (gor (is0 r * one) (is1 r * r 9)) (is2 r * r 10)) (is3 r * r 11)) (is4 r * r 12)
def bit1 : EReal := gor (gor (gor (is1 r * one) (is2 r * r 9)) (is3 r * r 10)) (is4 r * r 11)
def bit2 : EReal := gor (gor (is2 r * one) (is3 r * r 9)) (is4 r * r 10)
def bit3 : EReal := gor (is3 r * one) (is4 r * r 9)
def bit4 : EReal := is4 r * one

/-- The result row, most significant bit first. -/
def out : Fin 5 → EReal
  | 0 => bit4 r
  | 1 => bit3 r
  | 2 => bit2 r
  | 3 => bit1 r
  | 4 => bit0 r

end Row

/-- The circuit applied along the last axis of an array: entry `(a, b, k)` of the result is output `k` of the circuit on
    the row `x (a, b, ·)`. -/
def onRows {n0 n1 : Nat} (x : (⟨3, ![n0, n1, 32]⟩ : Shape).Idx → EReal) : (⟨3, ![n0, n1, 5]⟩ : Shape).Idx → EReal :=
  fun j => out (fun n => x (ix3 (j 0) (j 1) n)) (j 2)

end Cert.Circuit

end
-- ==== Proof.KernelBlock.lean ====
/-
  One grid point of the kernel, read as values.

  The body loads its 128 × 128 × 32 block whole, turns it so that the 32 pulses of a word lie along the leading axis,
  and cuts out pulses 1 to 12 as twelve lane-dense 128 × 128 sheets; sheet `n` at `(p, q)` is therefore the block's
  entry `(p, q, n)` (`pulse`). Every later operation of the body is an entrywise sum, difference or product of
  sheets and of splat constants, so at a fixed `(p, q)` the body evaluates, operation for operation, the circuit of
  Proof/Circuit.lean on the row `(p, q, ·)` of the block. The five result sheets are stored through the five unit-width
  rectangles at lanes 0 to 4 of the 128 × 128 × 5 output block, which tile it; so what the body leaves in the output block
  is the circuit applied along the last axis of the input block (`block`).
-/
import proofs.«132189_j76312978916076_1_alg».proof.Proof.Gen.KernelIdeal.Frame
import proofs.«132189_j76312978916076_1_alg».proof.Proof.Circuit
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.ValueIdx Cert.Circuit

/-- Exponent or fraction pulse `n` of the transposed block, as a lane-dense 128 × 128 sheet, at `(p, q)`: the block's
    entry `(p, q, n)`. -/
theorem pulse (n : Nat) (hn : n < 32) (h : S32x128x128.Slices ![n, 0, 0] S1x128x128)
    (x0 : Vec Ideal S128x128x32 .f32) (p q : Fin 128) :
    shapeCast S128x128 (extractStridedSlice S1x128x128 ![n, 0, 0] (k0_pay6 x0) h) shapeCasts_S1x128x128_S128x128 (ix2 p q)
      = x0 (ix3 p q ⟨n, hn⟩) := by
  refine (shapeCast_apply _ _ (ix2 p q) (ix3 (0 : Fin 1) p q) ?_).trans ?_
  · rw [Shape.rowMajor_val_three, Shape.rowMajor_val_two]
    show (0 * 128 + p.val) * 128 + q.val = p.val * 128 + q.val
    omega
  refine (extractStridedSlice_apply _ _ h (ix3 (0 : Fin 1) p q) (ix3 (⟨n, hn⟩ : Fin 32) p q) ?_).trans ?_
  · intro a
    match a with
    | ⟨0, _⟩ => show n = n + 0; omega
    | ⟨1, _⟩ => show p.val = 0 + p.val; omega
    | ⟨2, _⟩ => show q.val = 0 + q.val; omega
  unfold k0_pay6
  refine transpose_apply _ _ _ (ix3 (⟨n, hn⟩ : Fin 32) p q) (ix3 p q (⟨n, hn⟩ : Fin 32)) ?_
  intro b
  match b with
  | ⟨0, _⟩ => rfl
  | ⟨1, _⟩ => rfl
  | ⟨2, _⟩ => rfl
/-! Sheet `n` of the twelve reads pulse `n`. -/

theorem sheet1 (x0 : Vec Ideal S128x128x32 .f32) (p q : Fin 128) : k0_pay7 x0 (ix2 p q) = x0 (ix3 p q (1 : Fin 32)) :=
  pulse 1 (by omega) _ x0 p q
theorem sheet2 (x0 : Vec Ideal S128x128x32 .f32) (p q : Fin 128) : k0_pay8 x0 (ix2 p q) = x0 (ix3 p q (2 : Fin 32)) :=
  pulse 2 (by omega) _ x0 p q
theorem sheet3 (x0 : Vec Ideal S128x128x32 .f32) (p q : Fin 128) : k0_pay9 x0 (ix2 p q) = x0 (ix3 p q (3 : Fin 32)) :=
  pulse 3 (by omega) _ x0 p q
theorem sheet4 (x0 : Vec Ideal S128x128x32 .f32) (p q : Fin 128) : k0_pay10 x0 (ix2 p q) = x0 (ix3 p q (4 : Fin 32)) :=
  pulse 4 (by omega) _ x0 p q
theorem sheet5 (x0 : Vec Ideal S128x128x32 .f32) (p q : Fin 128) : k0_pay11 x0 (ix2 p q) = x0 (ix3 p q (5 : Fin 32)) :=
  pulse 5 (by omega) _ x0 p q
theorem sheet6 (x0 : Vec Ideal S128x128x32 .f32) (p q : Fin 128) : k0_pay12 x0 (ix2 p q) = x0 (ix3 p q (6 : Fin 32)) :=
  pulse 6 (by omega) _ x0 p q
theorem sheet7 (x0 : Vec Ideal S128x128x32 .f32) (p q : Fin 128) : k0_pay13 x0 (ix2 p q) = x0 (ix3 p q (7 : Fin 32)) :=
  pulse 7 (by omega) _ x0 p q
theorem sheet8 (x0 : Vec Ideal S128x128x32 .f32) (p q : Fin 128) : k0_pay14 x0 (ix2 p q) = x0 (ix3 p q (8 : Fin 32)) :=
  pulse 8 (by omega) _ x0 p q
theorem sheet9 (x0 : Vec Ideal S128x128x32 .f32) (p q : Fin 128) : k0_pay15 x0 (ix2 p q) = x0 (ix3 p q (9 : Fin 32)) :=
  pulse 9 (by omega) _ x0 p q
theorem sheet10 (x0 : Vec Ideal S128x128x32 .f32) (p q : Fin 128) : k0_pay16 x0 (ix2 p q) = x0 (ix3 p q (10 : Fin 32)) :=
  pulse 10 (by omega) _ x0 p q
theorem sheet11 (x0 : Vec Ideal S128x128x32 .f32) (p q : Fin 128) : k0_pay17 x0 (ix2 p q) = x0 (ix3 p q (11 : Fin 32)) :=
  pulse 11 (by omega) _ x0 p q
theorem sheet12 (x0 : Vec Ideal S128x128x32 .f32) (p q : Fin 128) : k0_pay18 x0 (ix2 p q) = x0 (ix3 p q (12 : Fin 32)) :=
  pulse 12 (by omega) _ x0 p q

set_option maxHeartbeats 4000000 in
/-- What the body leaves in the output block: entry `(p, q, k)` is output `k` of the circuit on the row `(p, q, ·)` of the
    input block. Piece by piece: the store through lane `k` carries result sheet `k` with a unit axis added, and at
    `(p, q)` that sheet unfolds, through the entrywise operations, to exactly the circuit's expression for bit `4 - k`. -/
theorem block (x0 : Vec Ideal S128x128x32 .f32) : out0_1 x0 = onRows x0 := by
  have hld : View.ld x0 r0_0 = x0 :=
    View.ld_unit_zero (by funext a; match a with | ⟨0, _⟩ => rfl | ⟨1, _⟩ => rfl | ⟨2, _⟩ => rfl) _ x0
  funext y
  unfold out0_1
  refine View.canon_apply_of_pieces (Val := Elt Ideal) (S := S128x128x5) (e := .f32) (onRows x0) _ ?_ y (cover0_1 _ _ _ _ _ y)
  intro pc hpc x
  rcases List.mem_cons.mp hpc with rfl | hpc
  · obtain ⟨p, q, z, rfl⟩ : ∃ (p q : Fin 128) (z : Fin 1), x = ix3 p q z := ⟨x 0, x 1, x 2, eq_ix3 x⟩
    have hz : z = 0 := Fin.ext (by omega)
    subst hz
    dsimp only
    have he : r0_5.emb (ix3 p q (0 : Fin 1)) = ix3 p q (4 : Fin 5) := by
      funext a
      match a with
      | ⟨0, _⟩ => apply Fin.ext; show 0 + 1 * p.val = p.val; omega
      | ⟨1, _⟩ => apply Fin.ext; show 0 + 1 * q.val = q.val; omega
      | ⟨2, _⟩ => apply Fin.ext; show 4 + 1 * 0 = 4; omega
    rw [he]
    unfold k0_pay5
    refine (shapeCast_apply _ _ (ix3 p q (0 : Fin 1)) (ix2 p q) ?_).trans ?_
    · rw [Shape.rowMajor_val_three, Shape.rowMajor_val_two]
      show p.val * 128 + q.val = (p.val * 128 + q.val) * 1 + 0
      omega
    show _ = out (fun n => x0 (ix3 p q n)) (4 : Fin 5)
    simp only [out, bit0, gxor, gor, gnot, h7, d7, k7, h6, d6, k6, h5, d5, k5, h4, d4, k4, h3, d3, k3, h2, d2, k2, h1, d1, k1, h0, d0, hiClear, is0, is1, is2, is3, is4, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, sheet1, sheet2, sheet3, sheet4, sheet5, sheet6, sheet7, sheet8, sheet9, sheet10, sheet11, sheet12,
      hld, mulf_apply, addf_apply, subf_apply, broadcast_apply]
    rfl
  rcases List.mem_cons.mp hpc with rfl | hpc
  · obtain ⟨p, q, z, rfl⟩ : ∃ (p q : Fin 128) (z : Fin 1), x = ix3 p q z := ⟨x 0, x 1, x 2, eq_ix3 x⟩
    have hz : z = 0 := Fin.ext (by omega)
    subst hz
    dsimp only
    have he : r0_4.emb (ix3 p q (0 : Fin 1)) = ix3 p q (3 : Fin 5) := by
      funext a
      match a with
      | ⟨0, _⟩ => apply Fin.ext; show 0 + 1 * p.val = p.val; omega
      | ⟨1, _⟩ => apply Fin.ext; show 0 + 1 * q.val = q.val; omega
      | ⟨2, _⟩ => apply Fin.ext; show 3 + 1 * 0 = 3; omega
    rw [he]
    unfold k0_pay4
    refine (shapeCast_apply _ _ (ix3 p q (0 : Fin 1)) (ix2 p q) ?_).trans ?_
    · rw [Shape.rowMajor_val_three, Shape.rowMajor_val_two]
      show p.val * 128 + q.val = (p.val * 128 + q.val) * 1 + 0
      omega
    show _ = out (fun n => x0 (ix3 p q n)) (3 : Fin 5)
    simp only [out, bit1, gxor, gor, gnot, h7, d7, k7, h6, d6, k6, h5, d5, k5, h4, d4, k4, h3, d3, k3, h2, d2, k2, h1, d1, k1, h0, d0, hiClear, is0, is1, is2, is3, is4, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, sheet1, sheet2, sheet3, sheet4, sheet5, sheet6, sheet7, sheet8, sheet9, sheet10, sheet11, sheet12,
      hld, mulf_apply, addf_apply, subf_apply, broadcast_apply]
    rfl
  rcases List.mem_cons.mp hpc with rfl | hpc
  · obtain ⟨p, q, z, rfl⟩ : ∃ (p q : Fin 128) (z : Fin 1), x = ix3 p q z := ⟨x 0, x 1, x 2, eq_ix3 x⟩
    have hz : z = 0 := Fin.ext (by omega)
    subst hz
    dsimp only
    have he : r0_3.emb (ix3 p q (0 : Fin 1)) = ix3 p q (2 : Fin 5) := by
      funext a
      match a with
      | ⟨0, _⟩ => apply Fin.ext; show 0 + 1 * p.val = p.val; omega
      | ⟨1, _⟩ => apply Fin.ext; show 0 + 1 * q.val = q.val; omega
      | ⟨2, _⟩ => apply Fin.ext; show 2 + 1 * 0 = 2; omega
    rw [he]
    unfold k0_pay3
    refine (shapeCast_apply _ _ (ix3 p q (0 : Fin 1)) (ix2 p q) ?_).trans ?_
    · rw [Shape.rowMajor_val_three, Shape.rowMajor_val_two]
      show p.val * 128 + q.val = (p.val * 128 + q.val) * 1 + 0
      omega
    show _ = out (fun n => x0 (ix3 p q n)) (2 : Fin 5)
    simp only [out, bit2, gxor, gor, gnot, h7, d7, k7, h6, d6, k6, h5, d5, k5, h4, d4, k4, h3, d3, k3, h2, d2, k2, h1, d1, k1, h0, d0, hiClear, is0, is1, is2, is3, is4, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, sheet1, sheet2, sheet3, sheet4, sheet5, sheet6, sheet7, sheet8, sheet9, sheet10, sheet11, sheet12,
      hld, mulf_apply, addf_apply, subf_apply, broadcast_apply]
    rfl
  rcases List.mem_cons.mp hpc with rfl | hpc
  · obtain ⟨p, q, z, rfl⟩ : ∃ (p q : Fin 128) (z : Fin 1), x = ix3 p q z := ⟨x 0, x 1, x 2, eq_ix3 x⟩
    have hz : z = 0 := Fin.ext (by omega)
    subst hz
    dsimp only
    have he : r0_2.emb (ix3 p q (0 : Fin 1)) = ix3 p q (1 : Fin 5) := by
      funext a
      match a with
      | ⟨0, _⟩ => apply Fin.ext; show 0 + 1 * p.val = p.val; omega
      | ⟨1, _⟩ => apply Fin.ext; show 0 + 1 * q.val = q.val; omega
      | ⟨2, _⟩ => apply Fin.ext; show 1 + 1 * 0 = 1; omega
    rw [he]
    unfold k0_pay2
    refine (shapeCast_apply _ _ (ix3 p q (0 : Fin 1)) (ix2 p q) ?_).trans ?_
    · rw [Shape.rowMajor_val_three, Shape.rowMajor_val_two]
      show p.val * 128 + q.val = (p.val * 128 + q.val) * 1 + 0
      omega
    show _ = out (fun n => x0 (ix3 p q n)) (1 : Fin 5)
    simp only [out, bit3, gxor, gor, gnot, h7, d7, k7, h6, d6, k6, h5, d5, k5, h4, d4, k4, h3, d3, k3, h2, d2, k2, h1, d1, k1, h0, d0, hiClear, is0, is1, is2, is3, is4, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, sheet1, sheet2, sheet3, sheet4, sheet5, sheet6, sheet7, sheet8, sheet9, sheet10, sheet11, sheet12,
      hld, mulf_apply, addf_apply, subf_apply, broadcast_apply]
    rfl
  rcases List.mem_cons.mp hpc with rfl | hpc
  · obtain ⟨p, q, z, rfl⟩ : ∃ (p q : Fin 128) (z : Fin 1), x = ix3 p q z := ⟨x 0, x 1, x 2, eq_ix3 x⟩
    have hz : z = 0 := Fin.ext (by omega)
    subst hz
    dsimp only
    have he : r0_1.emb (ix3 p q (0 : Fin 1)) = ix3 p q (0 : Fin 5) := by
      funext a
      match a with
      | ⟨0, _⟩ => apply Fin.ext; show 0 + 1 * p.val = p.val; omega
      | ⟨1, _⟩ => apply Fin.ext; show 0 + 1 * q.val = q.val; omega
      | ⟨2, _⟩ => apply Fin.ext; show 0 + 1 * 0 = 0; omega
    rw [he]
    unfold k0_pay1
    refine (shapeCast_apply _ _ (ix3 p q (0 : Fin 1)) (ix2 p q) ?_).trans ?_
    · rw [Shape.rowMajor_val_three, Shape.rowMajor_val_two]
      show p.val * 128 + q.val = (p.val * 128 + q.val) * 1 + 0
      omega
    show _ = out (fun n => x0 (ix3 p q n)) (0 : Fin 5)
    simp only [out, bit4, gxor, gor, gnot, h7, d7, k7, h6, d6, k6, h5, d5, k5, h4, d4, k4, h3, d3, k3, h2, d2, k2, h1, d1, k1, h0, d0, hiClear, is0, is1, is2, is3, is4, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, sheet1, sheet2, sheet3, sheet4, sheet5, sheet6, sheet7, sheet8, sheet9, sheet10, sheet11, sheet12,
      hld, mulf_apply, addf_apply, subf_apply, broadcast_apply]
    rfl
  nomatch hpc

end Cert.KernelIdeal.Block
end
-- ==== Proof.KernelWhole.lean ====
/-
  The kernel's result array, whole.

  The grid has 8 × 32 points; point `t` sits at block row `t / 32` and block column `t % 32`, and both windows move
  with it: the input block is rows `128·(t / 32) …`, columns `128·(t % 32) …` and all 32 pulses, the output block the same rows
  and columns and all 5 result bits. The body leaves in the output block the circuit applied along the last axis of the
  input block (Proof/KernelBlock.lean), and a row of the input block is a row of the argument array; so each point writes
  back its block of ONE function of the argument array, the circuit applied along the array's last axis. The 256 blocks tile
  the result array, which therefore ends holding that function everywhere.
-/
import proofs.«132189_j76312978916076_1_alg».proof.Proof.Gen.KernelIdeal.Value
import proofs.«132189_j76312978916076_1_alg».proof.Proof.KernelBlock
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Circuit
open Idealize.ShloMosaic.Pipeline (Dat)

variable (m : (ℓ : Loc nD τ sig) → Buf (Elt Ideal) ℓ) (ρ : Dev nD → PrngReg)

/-- The circuit along the last axis of the argument array as the region finds it. -/
abbrev result (c : Dev nD) : S1024x4096x5.Idx → Elt Ideal .f32 :=
  onRows (n0 := 1024) (n1 := 4096) (V m c main_arg0)

/-- Where point `t`'s blocks sit: block row `t / 32`, block column `t % 32`, the last axis whole — for both windows. -/
theorem block_index : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = t.val % 32 ∧ win0_1.index t (2 : Fin 3) = 0 :=
  (by decide +kernel : ∀ t : Fin grid0.N, _)

/-- What point `t` writes back is its block of `result`. -/
theorem flushed_eq (c : Dev nD) (t : Fin cfg0.N) :
    (dats m 0 c).flushed 1 t = ((cfg0.win 1).blk t).view.read (Elt Ideal) (result m c) := by
  rw [Cert.KernelIdeal.Value.flushed1]
  have hb : out0_1 (iblk m c 0 t) = onRows (n0 := 128) (n1 := 128) (iblk m c 0 t) := Cert.KernelIdeal.Block.block (iblk m c 0 t)
  rw [hb]
  obtain ⟨e0, e1, e2, e3, e4, e5⟩ := block_index t
  funext j
  show onRows (n0 := 128) (n1 := 128) (iblk m c 0 t) j = onRows (n0 := 1024) (n1 := 4096) (V m c main_arg0) (((cfg0.win 1).blk t).view.emb j)
  unfold onRows
  have hj0 : (j 0).val < 128 := (j 0).isLt
  have hj1 : (j 1).val < 128 := (j 1).isLt
  have hj2 : (j 2).val < 5 := (j 2).isLt
  have h2 : (((cfg0.win 1).blk t).view.emb j) 2 = j 2 := by
    apply Fin.ext
    show win0_1.index t (2 : Fin 3) * 5 + 1 * (j 2).val = (j 2).val
    omega
  rw [h2]
  congr 1
  funext n
  have hn : n.val < 32 := n.isLt
  show V m c main_arg0 (((cfg0.win 0).blk t).view.emb (ix3 (j 0) (j 1) n)) = V m c main_arg0 (ix3 ((((cfg0.win 1).blk t).view.emb j) 0) ((((cfg0.win 1).blk t).view.emb j) 1) n)
  congr 1
  funext a
  apply Fin.ext
  match a with
  | ⟨0, _⟩ => show win0_0.index t (0 : Fin 3) * 128 + 1 * (j 0).val = win0_1.index t (0 : Fin 3) * 128 + 1 * (j 0).val; omega
  | ⟨1, _⟩ => show win0_0.index t (1 : Fin 3) * 128 + 1 * (j 1).val = win0_1.index t (1 : Fin 3) * 128 + 1 * (j 1).val; omega
  | ⟨2, _⟩ => show win0_0.index t (2 : Fin 3) * 32 + 1 * n.val = n.val; omega

/-- An index of the result array is in point `t`'s block iff each coordinate is in the block's range on its axis. -/
theorem mem_blk (t : Fin cfg0.N) (i : S1024x4096x5.Idx) :
    i ∈ ((cfg0.win 1).blk t).view.set ↔ ∀ a : Fin 3, win0_1.index t a * S128x128x5.size a ≤ (i a).val ∧ (i a).val < win0_1.index t a * S128x128x5.size a + S128x128x5.size a := by
  show i ∈ ((View.whole main_v0).slice (win0_1.rect t)).set ↔ _
  rw [View.set_slice_whole, Rect.mem_set_unit]
  exact Iff.rfl

/-- Every index of the result array is in the block of the point at its block row and block column. -/
theorem covered (i : S1024x4096x5.Idx) :
    ∃ t : Fin cfg0.N, (cfg0.win 1).flush t = true ∧ i ∈ ((cfg0.win 1).blk t).view.set := by
  have hi0 : (i 0).val < 1024 := (i 0).isLt
  have hi1 : (i 1).val < 4096 := (i 1).isLt
  have hi2 : (i 2).val < 5 := (i 2).isLt
  have hN : cfg0.N = 256 := N_0
  let t : Fin cfg0.N := ⟨(i 0).val / 128 * 32 + (i 1).val / 128, by omega⟩
  have ht : t.val = (i 0).val / 128 * 32 + (i 1).val / 128 := rfl
  obtain ⟨e0, e1, e2, e3, e4, e5⟩ := block_index t
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 128 ≤ (i 1).val ∧ (i 1).val < win0_1.index t (1 : Fin 3) * 128 + 128; omega
  | ⟨2, _⟩ => show win0_1.index t (2 : Fin 3) * 5 ≤ (i 2).val ∧ (i 2).val < win0_1.index t (2 : Fin 3) * 5 + 5; omega

/-- The result array after the run is the circuit along the last axis of the argument array. -/
theorem final (c : Dev nD) : (dats m 0 c).arrAt 1 cfg0.N = result m c :=
  (dats m 0 c).arrAt_eq_of_cover 1 (result m c) (fun t _ => flushed_eq m c t) (covered)

/-- The kernel's run, read: the result array at the circuit of the argument array's rows, the argument unchanged. -/
theorem run : θ_run defs (onTc (τ := τ) (main (F := Ideal))) ⟨m, fun _ => 0, ρ⟩ fun r => ∀ c : Dev nD,
      r.2.mem ((c : Thread nD τ).loc main_v0) = onRows (n0 := 1024) (n1 := 4096) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.ReferenceWhole.lean ====
/-
  The reference's result array, whole.

  The reference cuts the exponent field (pulses 1 to 8) and the fraction (pulses 9 to 31) out of the argument array,
  then each single pulse it needs as an array of last extent 1; every later operation is an entrywise sum, difference or
  product of such arrays and of splat constants, and the five result bits are concatenated along the last axis. At a fixed
  `(a, b)` each of those arrays has the one entry `(a, b, 0)`: a pulse array holds the argument's entry `(a, b, n)`
  (`expPulse`, `fracPulse`), a broadcast scalar constant its value, and the arithmetic follows entry by entry; so the concatenation's entry
  `(a, b, k)` is, operation for operation, output `k` of the circuit of Proof/Circuit.lean on the row `(a, b, ·)`.
-/
import proofs.«132189_j76312978916076_1_alg».proof.Proof.Gen.ReferenceIdeal.Run
import proofs.«132189_j76312978916076_1_alg».proof.Proof.Circuit
import Idealize.ShloMosaic.Lib.Pipeline.Value
import Idealize.ShloMosaic.Lib.ValueIdx

set_option maxRecDepth 16384

noncomputable section

namespace Cert.ReferenceIdeal.Whole

open Cert.ReferenceIdeal Cert.ReferenceIdeal.Gen Cert.ReferenceIdeal.Value Idealize.ShloMosaic Idealize.ShloMosaic.TcCoe
open Idealize.ShloMosaic.ValueIdx Idealize.ShloMosaic.StableHlo Idealize.SL.Sem Cert.Circuit

/-- Exponent pulse `k` (counted from the most significant), as an array of last extent 1, at `(a, b, 0)`: the argument's
    entry `(a, b, 1 + k)`. -/
theorem expPulse (k : Nat) (hk : k < 8) (n : Fin 32) (hn : n.val = 1 + k) (h : S1024x4096x8.Slices ![0, 0, k] S1024x4096x1)
    (V0 : Valuation τ sig (Elt Ideal)) (a : Fin 1024) (b : Fin 4096) :
    extractStridedSlice S1024x4096x1 ![0, 0, k] (res_main_v0 V0) h (ix3 a b (0 : Fin 1))
      = V0 (Proc.devRef .tc main_arg0) (ix3 a b n) := by
  refine (extractStridedSlice_apply _ _ h (ix3 a b (0 : Fin 1)) (ix3 a b (⟨k, hk⟩ : Fin 8)) ?_).trans ?_
  · intro d
    match d with
    | ⟨0, _⟩ => show a.val = 0 + a.val; omega
    | ⟨1, _⟩ => show b.val = 0 + b.val; omega
    | ⟨2, _⟩ => show k = k + 0; omega
  unfold res_main_v0
  refine extractStridedSlice_apply _ _ _ (ix3 a b (⟨k, hk⟩ : Fin 8)) (ix3 a b n) ?_
  intro d
  match d with
  | ⟨0, _⟩ => show a.val = 0 + a.val; omega
  | ⟨1, _⟩ => show b.val = 0 + b.val; omega
  | ⟨2, _⟩ => show n.val = 1 + k; omega

/-- Fraction pulse `k`, as an array of last extent 1, at `(a, b, 0)`: the argument's entry `(a, b, 9 + k)`. -/
theorem fracPulse (k : Nat) (n : Fin 32) (hn : n.val = 9 + k) (h : S1024x4096x23.Slices ![0, 0, k] S1024x4096x1)
    (V0 : Valuation τ sig (Elt Ideal)) (a : Fin 1024) (b : Fin 4096) :
    extractStridedSlice S1024x4096x1 ![0, 0, k] (res_main_v1 V0) h (ix3 a b (0 : Fin 1))
      = V0 (Proc.devRef .tc main_arg0) (ix3 a b n) := by
  have hk : k < 23 := by have := n.isLt; omega
  refine (extractStridedSlice_apply _ _ h (ix3 a b (0 : Fin 1)) (ix3 a b (⟨k, hk⟩ : Fin 23)) ?_).trans ?_
  · intro d
    match d with
    | ⟨0, _⟩ => show a.val = 0 + a.val; omega
    | ⟨1, _⟩ => show b.val = 0 + b.val; omega
    | ⟨2, _⟩ => show k = k + 0; omega
  unfold res_main_v1
  refine extractStridedSlice_apply _ _ _ (ix3 a b (⟨k, hk⟩ : Fin 23)) (ix3 a b n) ?_
  intro d
  match d with
  | ⟨0, _⟩ => show a.val = 0 + a.val; omega
  | ⟨1, _⟩ => show b.val = 0 + b.val; omega
  | ⟨2, _⟩ => show n.val = 9 + k; omega

/-! The twelve pulses the circuit reads, by the buffers that hold them. -/

theorem exp7 (V0 : Valuation τ sig (Elt Ideal)) (a : Fin 1024) (b : Fin 4096) :
    res_main_v3 V0 (ix3 a b (0 : Fin 1)) = V0 (Proc.devRef .tc main_arg0) (ix3 a b (8 : Fin 32)) :=
  expPulse 7 (by omega) (8 : Fin 32) rfl _ V0 a b
theorem exp6 (V0 : Valuation τ sig (Elt Ideal)) (a : Fin 1024) (b : Fin 4096) :
    res_main_v20 V0 (ix3 a b (0 : Fin 1)) = V0 (Proc.devRef .tc main_arg0) (ix3 a b (7 : Fin 32)) :=
  expPulse 6 (by omega) (7 : Fin 32) rfl _ V0 a b
theorem exp5 (V0 : Valuation τ sig (Elt Ideal)) (a : Fin 1024) (b : Fin 4096) :
    res_main_v37 V0 (ix3 a b (0 : Fin 1)) = V0 (Proc.devRef .tc main_arg0) (ix3 a b (6 : Fin 32)) :=
  expPulse 5 (by omega) (6 : Fin 32) rfl _ V0 a b
theorem exp4 (V0 : Valuation τ sig (Elt Ideal)) (a : Fin 1024) (b : Fin 4096) :
    res_main_v54 V0 (ix3 a b (0 : Fin 1)) = V0 (Proc.devRef .tc main_arg0) (ix3 a b (5 : Fin 32)) :=
  expPulse 4 (by omega) (5 : Fin 32) rfl _ V0 a b
theorem exp3 (V0 : Valuation τ sig (Elt Ideal)) (a : Fin 1024) (b : Fin 4096) :
    res_main_v71 V0 (ix3 a b (0 : Fin 1)) = V0 (Proc.devRef .tc main_arg0) (ix3 a b (4 : Fin 32)) :=
  expPulse 3 (by omega) (4 : Fin 32) rfl _ V0 a b
theorem exp2 (V0 : Valuation τ sig (Elt Ideal)) (a : Fin 1024) (b : Fin 4096) :
    res_main_v88 V0 (ix3 a b (0 : Fin 1)) = V0 (Proc.devRef .tc main_arg0) (ix3 a b (3 : Fin 32)) :=
  expPulse 2 (by omega) (3 : Fin 32) rfl _ V0 a b
theorem exp1 (V0 : Valuation τ sig (Elt Ideal)) (a : Fin 1024) (b : Fin 4096) :
    res_main_v105 V0 (ix3 a b (0 : Fin 1)) = V0 (Proc.devRef .tc main_arg0) (ix3 a b (2 : Fin 32)) :=
  expPulse 1 (by omega) (2 : Fin 32) rfl _ V0 a b
theorem exp0 (V0 : Valuation τ sig (Elt Ideal)) (a : Fin 1024) (b : Fin 4096) :
    res_main_v122 V0 (ix3 a b (0 : Fin 1)) = V0 (Proc.devRef .tc main_arg0) (ix3 a b (1 : Fin 32)) :=
  expPulse 0 (by omega) (1 : Fin 32) rfl _ V0 a b
theorem frac0 (V0 : Valuation τ sig (Elt Ideal)) (a : Fin 1024) (b : Fin 4096) :
    res_main_v174 V0 (ix3 a b (0 : Fin 1)) = V0 (Proc.devRef .tc main_arg0) (ix3 a b (9 : Fin 32)) :=
  fracPulse 0 (9 : Fin 32) rfl _ V0 a b
theorem frac1 (V0 : Valuation τ sig (Elt Ideal)) (a : Fin 1024) (b : Fin 4096) :
    res_main_v175 V0 (ix3 a b (0 : Fin 1)) = V0 (Proc.devRef .tc main_arg0) (ix3 a b (10 : Fin 32)) :=
  fracPulse 1 (10 : Fin 32) rfl _ V0 a b
theorem frac2 (V0 : Valuation τ sig (Elt Ideal)) (a : Fin 1024) (b : Fin 4096) :
    res_main_v176 V0 (ix3 a b (0 : Fin 1)) = V0 (Proc.devRef .tc main_arg0) (ix3 a b (11 : Fin 32)) :=
  fracPulse 2 (11 : Fin 32) rfl _ V0 a b
theorem frac3 (V0 : Valuation τ sig (Elt Ideal)) (a : Fin 1024) (b : Fin 4096) :
    (extractStridedSlice S1024x4096x1 ![0, 0, 3] (res_main_v1 V0) slices_S1024x4096x23_S1024x4096x1_0_0_3
        : FVec Ideal S1024x4096x1 .f32) (ix3 a b (0 : Fin 1))
      = V0 (Proc.devRef .tc main_arg0) (ix3 a b (12 : Fin 32)) :=
  fracPulse 3 (12 : Fin 32) rfl _ V0 a b

set_option maxHeartbeats 4000000 in
/-- The reference's result: entry `(a, b, k)` is output `k` of the circuit on the row `(a, b, ·)` of the argument array.
    The concatenation's piece `k` is the array of result bit `4 - k`; read at `(a, b, 0)` it unfolds, through the entrywise
    operations, to exactly the circuit's expression for that bit. -/
theorem result_eq (V0 : Valuation τ sig (Elt Ideal)) :
    val5 V0 (no_index (Proc.devRef .tc main_v223)) = onRows (n0 := 1024) (n1 := 4096) (V0 (Proc.devRef .tc main_arg0)) := by
  rw [val5_main_v223]
  funext j
  obtain ⟨a, b, k, rfl⟩ : ∃ (a : Fin 1024) (b : Fin 4096) (k : Fin 5), j = ix3 a b k := ⟨j 0, j 1, j 2, eq_ix3 j⟩
  show _ = out (fun n => V0 (Proc.devRef .tc main_arg0) (ix3 a b n)) k
  match k with
  | ⟨0, _⟩ =>
    refine (concatenate_apply_piece (2 : Fin 3) _ _ (ix3 a b (0 : Fin 5)) 0 ?hk0 S1024x4096x1 ?x0 ?hxk0 rfl 0 ?hpre0
      (ix3 a b (0 : Fin 1)) ?hi0 ?ha0).trans ?main0
    case hk0 => show 0 < 5; omega
    case hxk0 => rfl
    case hpre0 => rfl
    case hi0 =>
      intro d hd
      match d with
      | ⟨0, _⟩ => rfl
      | ⟨1, _⟩ => rfl
      | ⟨2, _⟩ => exact absurd rfl hd
    case ha0 => rfl
    case main0 =>
      show _ = out (fun n => V0 (Proc.devRef .tc main_arg0) (ix3 a b n)) (0 : Fin 5)
      simp only [out, bit4, gxor, gor, gnot, h7, d7, k7, h6, d6, k6, h5, d5, k5, h4, d4, k4, h3, d3, k3, h2, d2, k2, h1, d1, k1, h0, d0, hiClear, is0, is1, is2, is3, is4,
      res_main_v2, res_main_v10, res_main_v15, res_main_v19, res_main_v27, res_main_v32, res_main_v36, res_main_v44, res_main_v49, res_main_v53, res_main_v61, res_main_v70, res_main_v78, res_main_v87, res_main_v95, res_main_v104, res_main_v112, res_main_v121, res_main_v129, res_main_v150, res_main_v152, res_main_v154, res_main_v158, res_main_v164, res_main_v167, res_main_v170, res_main_v173, res_main_v178, res_main_v179, res_main_v180, res_main_v181, res_main_v182, res_main_v185, res_main_v188, res_main_v191, res_main_v195, res_main_v196, res_main_v197, res_main_v198, res_main_v201, res_main_v204, res_main_v208, res_main_v209, res_main_v210, res_main_v213, res_main_v217, res_main_v218,
      exp7, exp6, exp5, exp4, exp3, exp2, exp1, exp0, frac0, frac1, frac2, frac3, broadcastInDim, constant_apply, mulf_apply, addf_apply, subf_apply]
  | ⟨1, _⟩ =>
    refine (concatenate_apply_piece (2 : Fin 3) _ _ (ix3 a b (1 : Fin 5)) 1 ?hk1 S1024x4096x1 ?x1 ?hxk1 rfl 1 ?hpre1
      (ix3 a b (0 : Fin 1)) ?hi1 ?ha1).trans ?main1
    case hk1 => show 1 < 5; omega
    case hxk1 => rfl
    case hpre1 => rfl
    case hi1 =>
      intro d hd
      match d with
      | ⟨0, _⟩ => rfl
      | ⟨1, _⟩ => rfl
      | ⟨2, _⟩ => exact absurd rfl hd
    case ha1 => rfl
    case main1 =>
      show _ = out (fun n => V0 (Proc.devRef .tc main_arg0) (ix3 a b n)) (1 : Fin 5)
      simp only [out, bit3, gxor, gor, gnot, h7, d7, k7, h6, d6, k6, h5, d5, k5, h4, d4, k4, h3, d3, k3, h2, d2, k2, h1, d1, k1, h0, d0, hiClear, is0, is1, is2, is3, is4,
      res_main_v2, res_main_v10, res_main_v15, res_main_v19, res_main_v27, res_main_v32, res_main_v36, res_main_v44, res_main_v49, res_main_v53, res_main_v61, res_main_v70, res_main_v78, res_main_v87, res_main_v95, res_main_v104, res_main_v112, res_main_v121, res_main_v129, res_main_v150, res_main_v152, res_main_v154, res_main_v158, res_main_v164, res_main_v167, res_main_v170, res_main_v173, res_main_v178, res_main_v179, res_main_v180, res_main_v181, res_main_v182, res_main_v185, res_main_v188, res_main_v191, res_main_v195, res_main_v196, res_main_v197, res_main_v198, res_main_v201, res_main_v204, res_main_v208, res_main_v209, res_main_v210, res_main_v213, res_main_v217, res_main_v218,
      exp7, exp6, exp5, exp4, exp3, exp2, exp1, exp0, frac0, frac1, frac2, frac3, broadcastInDim, constant_apply, mulf_apply, addf_apply, subf_apply]
  | ⟨2, _⟩ =>
    refine (concatenate_apply_piece (2 : Fin 3) _ _ (ix3 a b (2 : Fin 5)) 2 ?hk2 S1024x4096x1 ?x2 ?hxk2 rfl 2 ?hpre2
      (ix3 a b (0 : Fin 1)) ?hi2 ?ha2).trans ?main2
    case hk2 => show 2 < 5; omega
    case hxk2 => rfl
    case hpre2 => rfl
    case hi2 =>
      intro d hd
      match d with
      | ⟨0, _⟩ => rfl
      | ⟨1, _⟩ => rfl
      | ⟨2, _⟩ => exact absurd rfl hd
    case ha2 => rfl
    case main2 =>
      show _ = out (fun n => V0 (Proc.devRef .tc main_arg0) (ix3 a b n)) (2 : Fin 5)
      simp only [out, bit2, gxor, gor, gnot, h7, d7, k7, h6, d6, k6, h5, d5, k5, h4, d4, k4, h3, d3, k3, h2, d2, k2, h1, d1, k1, h0, d0, hiClear, is0, is1, is2, is3, is4,
      res_main_v2, res_main_v10, res_main_v15, res_main_v19, res_main_v27, res_main_v32, res_main_v36, res_main_v44, res_main_v49, res_main_v53, res_main_v61, res_main_v70, res_main_v78, res_main_v87, res_main_v95, res_main_v104, res_main_v112, res_main_v121, res_main_v129, res_main_v150, res_main_v152, res_main_v154, res_main_v158, res_main_v164, res_main_v167, res_main_v170, res_main_v173, res_main_v178, res_main_v179, res_main_v180, res_main_v181, res_main_v182, res_main_v185, res_main_v188, res_main_v191, res_main_v195, res_main_v196, res_main_v197, res_main_v198, res_main_v201, res_main_v204, res_main_v208, res_main_v209, res_main_v210, res_main_v213, res_main_v217, res_main_v218,
      exp7, exp6, exp5, exp4, exp3, exp2, exp1, exp0, frac0, frac1, frac2, frac3, broadcastInDim, constant_apply, mulf_apply, addf_apply, subf_apply]
  | ⟨3, _⟩ =>
    refine (concatenate_apply_piece (2 : Fin 3) _ _ (ix3 a b (3 : Fin 5)) 3 ?hk3 S1024x4096x1 ?x3 ?hxk3 rfl 3 ?hpre3
      (ix3 a b (0 : Fin 1)) ?hi3 ?ha3).trans ?main3
    case hk3 => show 3 < 5; omega
    case hxk3 => rfl
    case hpre3 => rfl
    case hi3 =>
      intro d hd
      match d with
      | ⟨0, _⟩ => rfl
      | ⟨1, _⟩ => rfl
      | ⟨2, _⟩ => exact absurd rfl hd
    case ha3 => rfl
    case main3 =>
      show _ = out (fun n => V0 (Proc.devRef .tc main_arg0) (ix3 a b n)) (3 : Fin 5)
      simp only [out, bit1, gxor, gor, gnot, h7, d7, k7, h6, d6, k6, h5, d5, k5, h4, d4, k4, h3, d3, k3, h2, d2, k2, h1, d1, k1, h0, d0, hiClear, is0, is1, is2, is3, is4,
      res_main_v2, res_main_v10, res_main_v15, res_main_v19, res_main_v27, res_main_v32, res_main_v36, res_main_v44, res_main_v49, res_main_v53, res_main_v61, res_main_v70, res_main_v78, res_main_v87, res_main_v95, res_main_v104, res_main_v112, res_main_v121, res_main_v129, res_main_v150, res_main_v152, res_main_v154, res_main_v158, res_main_v164, res_main_v167, res_main_v170, res_main_v173, res_main_v178, res_main_v179, res_main_v180, res_main_v181, res_main_v182, res_main_v185, res_main_v188, res_main_v191, res_main_v195, res_main_v196, res_main_v197, res_main_v198, res_main_v201, res_main_v204, res_main_v208, res_main_v209, res_main_v210, res_main_v213, res_main_v217, res_main_v218,
      exp7, exp6, exp5, exp4, exp3, exp2, exp1, exp0, frac0, frac1, frac2, frac3, broadcastInDim, constant_apply, mulf_apply, addf_apply, subf_apply]
  | ⟨4, _⟩ =>
    refine (concatenate_apply_piece (2 : Fin 3) _ _ (ix3 a b (4 : Fin 5)) 4 ?hk4 S1024x4096x1 ?x4 ?hxk4 rfl 4 ?hpre4
      (ix3 a b (0 : Fin 1)) ?hi4 ?ha4).trans ?main4
    case hk4 => show 4 < 5; omega
    case hxk4 => rfl
    case hpre4 => rfl
    case hi4 =>
      intro d hd
      match d with
      | ⟨0, _⟩ => rfl
      | ⟨1, _⟩ => rfl
      | ⟨2, _⟩ => exact absurd rfl hd
    case ha4 => rfl
    case main4 =>
      show _ = out (fun n => V0 (Proc.devRef .tc main_arg0) (ix3 a b n)) (4 : Fin 5)
      simp only [out, bit0, gxor, gor, gnot, h7, d7, k7, h6, d6, k6, h5, d5, k5, h4, d4, k4, h3, d3, k3, h2, d2, k2, h1, d1, k1, h0, d0, hiClear, is0, is1, is2, is3, is4,
      res_main_v2, res_main_v10, res_main_v15, res_main_v19, res_main_v27, res_main_v32, res_main_v36, res_main_v44, res_main_v49, res_main_v53, res_main_v61, res_main_v70, res_main_v78, res_main_v87, res_main_v95, res_main_v104, res_main_v112, res_main_v121, res_main_v129, res_main_v150, res_main_v152, res_main_v154, res_main_v158, res_main_v164, res_main_v167, res_main_v170, res_main_v173, res_main_v178, res_main_v179, res_main_v180, res_main_v181, res_main_v182, res_main_v185, res_main_v188, res_main_v191, res_main_v195, res_main_v196, res_main_v197, res_main_v198, res_main_v201, res_main_v204, res_main_v208, res_main_v209, res_main_v210, res_main_v213, res_main_v217, res_main_v218,
      exp7, exp6, exp5, exp4, exp3, exp2, exp1, exp0, frac0, frac1, frac2, frac3, broadcastInDim, constant_apply, mulf_apply, addf_apply, subf_apply]

end Cert.ReferenceIdeal.Whole

end
-- ==== Proof.lean ====
/-
  The kernel against its reference, over the extended reals.

  Both programs read an array of 1024 × 4096 rows of 32 numbers, the pulses of a binary32 word, and for each row run one
  and the same bit-serial circuit (Proof/Circuit.lean): subtract the bias 127 from the exponent field by a ripple adder,
  test the difference for 0 to 4, and assemble five result bits from those tests and the four leading fraction pulses. The
  circuit's gates are polynomials (AND a product, OR `a + b - a·b`, NOT `1 - a`, XOR `a + b - 2·a·b`), and the two programs
  apply them in the same order with the same three literals (1.0, 2.0, 0.0), so their results are the same expression of
  the row's entries on the extended reals: no law of arithmetic is used, and finiteness of the input is not needed for the
  value claim.
  The kernel tiles the array into 128 × 128 blocks of rows, turns each block so that a pulse is a lane-dense sheet, and
  computes on sheets (Proof/KernelBlock.lean: one block; Proof/KernelWhole.lean: the 256 blocks tile the result). The
  reference slices single pulses off the whole array and concatenates the five result bits
  (Proof/ReferenceWhole.lean). Both end with the circuit applied along the last axis of the argument array.
  The kernel's idealization rewrote nothing, so it is the kernel's own text read over the extended reals.
-/
import proofs.«132189_j76312978916076_1_alg».proof.Defs
import proofs.«132189_j76312978916076_1_alg».proof.Proof.Gen.Kernel
import proofs.«132189_j76312978916076_1_alg».proof.Proof.Gen.Kernel.Skeleton
import proofs.«132189_j76312978916076_1_alg».proof.Proof.Gen.Kernel.Launch
import proofs.«132189_j76312978916076_1_alg».proof.Proof.Gen.Kernel.Points
import proofs.«132189_j76312978916076_1_alg».proof.Proof.Gen.Kernel.Frame
import proofs.«132189_j76312978916076_1_alg».proof.Proof.Gen.KernelIdeal
import proofs.«132189_j76312978916076_1_alg».proof.Proof.Gen.KernelIdeal.Skeleton
import proofs.«132189_j76312978916076_1_alg».proof.Proof.Gen.KernelIdeal.Launch
import proofs.«132189_j76312978916076_1_alg».proof.Proof.Gen.KernelIdeal.Points
import proofs.«132189_j76312978916076_1_alg».proof.Proof.Gen.KernelIdeal.Frame
import proofs.«132189_j76312978916076_1_alg».proof.Proof.Gen.ReferenceIdeal
import proofs.«132189_j76312978916076_1_alg».proof.Proof.Gen.Pre_finite_inputs
import proofs.«132189_j76312978916076_1_alg».proof.Proof.Gen.KernelIdeal.Value
import proofs.«132189_j76312978916076_1_alg».proof.Proof.Gen.ReferenceIdeal.Run
import proofs.«132189_j76312978916076_1_alg».proof.Proof.KernelWhole
import proofs.«132189_j76312978916076_1_alg».proof.Proof.ReferenceWhole
import Idealize.ShloMosaic.Adequacy
import Idealize.ShloMosaic.Init

noncomputable section

namespace Cert.Proof

open Idealize.ShloMosaic Idealize.ShloMosaic.TcCoe Idealize.ShloMosaic.StableHlo Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its argument is never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From arguments that agree, both programs end with the circuit applied along the last axis of the argument array: the
    kernel block by block (`Cert.KernelIdeal.Whole.run`), the reference on the whole array
    (`Cert.ReferenceIdeal.Whole.result_eq` over its run). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [← hagree c]
  exact (Cert.ReferenceIdeal.Value.val5_main_v223 (launchContents m' c)).symm.trans
    (Cert.ReferenceIdeal.Whole.result_eq (launchContents m' c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
